-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1600000 : S_.BroadcastsInDim S1600000 (![] : Fin 0 → Fin S1600000.rank)
  reducesTo_S1600000_S_d0 : S1600000.ReducesTo [0] S_

variable [Facts]

def fn_part1 {F : FTy → Type} [FloatOps F] (main_v13 : IVec S_ 1) (main_v16 : IVec S1600000 1) : IVec S_ 1 :=
  let main_c_5 : IVec S_ 1 := constantI S_ 1 1#1
  let main_v17 : IVec S_ 1 := (fun x v => Host.reduce IntOp.andi x v reducesTo_S1600000_S_d0 h_S_) main_v16 main_c_5
  let main_v18 : IVec S_ 1 := andi main_v13 main_v17
  main_v18

def fn {F : FTy → Type} [FloatOps F] (main_arg0 : FVec F S100000x128 .f32) (main_arg1 : FVec F S128x128 .f32) (main_arg2 : FVec F S128 .f32) (main_arg3 : FVec F S1600000 .f32) (main_arg4 : IVec S1600000 32) (main_arg5 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S1600000 .f32 := Host.absf main_arg3
  let main_cst_4 : FVec F S_ .f32 := constant S_ .f32 0x7F800000#32
  let main_v15 : FVec F S1600000 .f32 := broadcastInDim S1600000 ![] bcast_S_S1600000 main_cst_4
  let main_v16 : IVec S1600000 1 := cmpf .olt main_v14 main_v15
  fn_part1 (F := F) main_v13 main_v16
-- ==== Kernel.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S1x128 : Shape := ⟨2, ![1, 128]⟩
abbrev S10000x128 : Shape := ⟨2, ![10000, 128]⟩
abbrev S_ : Shape := ⟨0, ![]⟩
abbrev S1600000x1 : Shape := ⟨2, ![1600000, 1]⟩
abbrev S1600000x128 : Shape := ⟨2, ![1600000, 128]⟩
abbrev S16000x1 : Shape := ⟨2, ![16000, 1]⟩
abbrev S16000x128 : Shape := ⟨2, ![16000, 128]⟩

abbrev nBuf : Space → Nat
  | .hbm => 24
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S1600000, .f32⟩
  | .hbm, ⟨4, _⟩ => ⟨S1600000, .i32⟩
  | .hbm, ⟨5, _⟩ => ⟨S1600000, .i32⟩
  | .hbm, ⟨6, _⟩ => ⟨S1x128, .f32⟩
  | .hbm, ⟨7, _⟩ => ⟨S100000x128, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x128, .f32⟩
  | .hbm, ⟨17, _⟩ => ⟨S1600000x1, .f32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S1x128, .f32⟩
  | .local _ .vmem, ⟨4, _⟩ => ⟨S10000x128, .f32⟩
  | .local _ .vmem, ⟨5, _⟩ => ⟨S10000x128, .f32⟩
  | .local _ .vmem, ⟨6, _⟩ => ⟨S16000x1, .f32⟩
  | .local _ .vmem, ⟨7, _⟩ => ⟨S16000x1, .f32⟩
  | .local _ .vmem, ⟨8, _⟩ => ⟨S16000x128, .f32⟩
  | .local _ .vmem, ⟨9, _⟩ => ⟨S16000x128, .f32⟩
  | .local _ .vmem, ⟨10, _⟩ => ⟨S16000x128, .f32⟩
  | .local _ .vmem, ⟨11, _⟩ => ⟨S16000x128, .f32⟩
  | .local _ .vmem, ⟨12, _⟩ => ⟨S10000x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S16000x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S16000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

class Facts₀ : Prop where
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  bcast_S_S1600000 : S_.BroadcastsInDim S1600000 (![] : Fin 0 → Fin S1600000.rank)
  bcast_S1600000_S1600000x1_0 : S1600000.BroadcastsInDim S1600000x1 (![0] : Fin 1 → Fin S1600000x1.rank)
  shapeCasts_S1600000_S1600000x1 : S1600000.ShapeCasts S1600000x1
  inb_S16000x1_S16000x1_0_0 : ∀ a, (![0, 0] : Fin 2 → Nat) a + S16000x1.size a ≤ S16000x1.size a
  h_S16000x1 : 0 < S16000x1.numel
  shapeCasts_S16000x1_S16000x1 : S16000x1.ShapeCasts S16000x1
  inb_S16000x128_S16000x128_0_0 : ∀ a, (![0, 0] : Fin 2 → Nat) a + S16000x128.size a ≤ S16000x128.size a
  h_S16000x128 : 0 < S16000x128.numel
  shapeCasts_S16000x128_S16000x128 : S16000x128.ShapeCasts S16000x128
  broadcasts_S16000x1_S16000x128 : S16000x1.Broadcasts S16000x128
  bcast_S_S100000x128 : S_.BroadcastsInDim S100000x128 (![] : Fin 0 → Fin S100000x128.rank)
  shapeCasts_S10000x128_S10000x128 : S10000x128.ShapeCasts S10000x128
  dot_S10000x128_S128x128_S10000x128_1_0_0_1_n_n_wf : DotDims.WF S10000x128 S128x128 S10000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .f32 = 32 ∨ (Rect.block (s := S100000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16000x1.size a ≤ S1600000x1.size a
  hwx1_0 : ∀ i : grid1.Coords, EltTy.bits .f32 = 32 ∨ (Rect.block (s := S1600000x1) S16000x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16000x128.size a ≤ S1600000x128.size a
  hwx1_1 : ∀ i : grid1.Coords, EltTy.bits .f32 = 32 ∨ (Rect.block (s := S1600000x128) S16000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S16000x128.size a ≤ S1600000x128.size a
  hwx1_2 : ∀ i : grid1.Coords, EltTy.bits .f32 = 32 ∨ (Rect.block (s := S1600000x128) S16000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S100000x128.size a
  hwx2_1 : ∀ i : grid2.Coords, EltTy.bits .f32 = 32 ∨ (Rect.block (s := S100000x128) S10000x128.size (cc2_transform_1 i) (hinb2_1 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v9) S16000x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S16000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S16000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v13) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S10000x128.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S1x128 : Shape := ⟨2, ![1, 128]⟩
abbrev S1600000x1 : Shape := ⟨2, ![1600000, 1]⟩
abbrev S_ : Shape := ⟨0, ![]⟩
abbrev S1600000x128 : Shape := ⟨2, ![1600000, 128]⟩

abbrev nBuf : Space → Nat
  | .hbm => 29
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S1600000, .f32⟩
  | .hbm, ⟨4, _⟩ => ⟨S1600000, .i32⟩
  | .hbm, ⟨5, _⟩ => ⟨S1600000, .i32⟩
  | .hbm, ⟨6, _⟩ => ⟨S100000x128, .f32⟩
  | .hbm, ⟨7, _⟩ => ⟨S1x128, .f32⟩
  | .hbm, ⟨8, _⟩ => ⟨S100000x128, .f32⟩
  | .hbm, ⟨9, _⟩ => ⟨S100000x128, .f32⟩
  | .hbm, ⟨10, _⟩ => ⟨S1600000x1, .f32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x128, .f32⟩
  | .hbm, ⟨20, _⟩ => ⟨S1600000x128, .f32⟩
  | .hbm, ⟨21, _⟩ => ⟨S1600000x128, .f32⟩
  | .hbm, ⟨22, _⟩ => ⟨S_, .f32⟩
  | .hbm, ⟨23, _⟩ => ⟨S100000x128, .f32⟩
  | .hbm, ⟨24, _⟩ => ⟨S1600000x1, .i32⟩
  | .hbm, ⟨25, _⟩ => ⟨S100000x128, .f32⟩
  | .hbm, ⟨26, _⟩ => ⟨S_, .f32⟩
  | .hbm, ⟨27, _⟩ => ⟨S100000x128, .f32⟩
  | .hbm, ⟨28, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_cst : Ref sig .tc := ⟨.hbm, 26, rfl⟩
abbrev main_call0_v0 : Ref sig .tc := ⟨.hbm, 27, rfl⟩
abbrev main_v17 : Ref sig .tc := ⟨.hbm, 28, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  dot_S100000x128_S128x128_S100000x128_1_1_0_0_n_n_wf : DotDims.WF S100000x128 S128x128 S100000x128 [1] [1] [0] [0] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x128_S128x128_S100000x128_1_1_0_0_n_n : DotDims S100000x128 S128x128 S100000x128 where
  lhsContracting := [1]
  rhsContracting := [1]
  lhsNonContracting := [0]
  rhsNonContracting := [0]
  lhsBatch := []
  rhsBatch := []
  wf := dot_S100000x128_S128x128_S100000x128_1_1_0_0_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.LinearRegion.lean ====
/-
  The first call's value, over the extended reals. Its body loads a 10000 × 128 block of `x`, the whole 128 × 128
  weight matrix and the 1 × 128 bias row, multiplies the block by the transposed weights into a zero accumulator and
  adds the bias row to every row (the changes of float format are the identity on extended reals). So entry (p, q) of
  what it stores is  Σ_k x(p, k) · W(q, k) + b(0, q);  block `t` of `x` and of the output is rows
  10000·t … 10000·t + 9999 while the weights and the bias are read whole at every point. What point `t` writes back is
  therefore block `t` of ONE whole-array function of the three input arrays, the ten blocks tile the 100000 × 128
  output, and the output array ends at that function.
-/
import proofs.«127006_j23630910062645_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.LinearRegion

open Cert.KernelIdeal Cert.KernelIdeal.Gen
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-! ## Indices -/

/-- Entry (row of `j`, `k`) of a block of `x`. -/
abbrev blockX (j : S10000x128.Idx) (k : Fin 128) : S10000x128.Idx := fun a => match a with
  | ⟨0, _⟩ => ⟨(j 0).val, (j 0).isLt⟩
  | ⟨1, _⟩ => ⟨k.val, k.isLt⟩
/-- Entry (column of `j`, `k`) of the weight matrix, for an entry `j` of a block. -/
abbrev blockW (j : S10000x128.Idx) (k : Fin 128) : S128x128.Idx := fun a => match a with
  | ⟨0, _⟩ => ⟨(j 1).val, (j 1).isLt⟩
  | ⟨1, _⟩ => ⟨k.val, k.isLt⟩
/-- Entry (0, column of `j`) of the bias row, for an entry `j` of a block. -/
abbrev blockB (j : S10000x128.Idx) : S1x128.Idx := fun a => match a with
  | ⟨0, _⟩ => ⟨0, Nat.one_pos⟩
  | ⟨1, _⟩ => ⟨(j 1).val, (j 1).isLt⟩

/-- Entry (row of `i`, `k`) of `x`. -/
abbrev arrayX (i : S100000x128.Idx) (k : Fin 128) : S100000x128.Idx := fun a => match a with
  | ⟨0, _⟩ => ⟨(i 0).val, (i 0).isLt⟩
  | ⟨1, _⟩ => ⟨k.val, k.isLt⟩
/-- Entry (column of `i`, `k`) of the weight matrix. -/
abbrev arrayW (i : S100000x128.Idx) (k : Fin 128) : S128x128.Idx := fun a => match a with
  | ⟨0, _⟩ => ⟨(i 1).val, (i 1).isLt⟩
  | ⟨1, _⟩ => ⟨k.val, k.isLt⟩
/-- Entry (0, column of `i`) of the bias row. -/
abbrev arrayB (i : S100000x128.Idx) : S1x128.Idx := fun a => match a with
  | ⟨0, _⟩ => ⟨0, Nat.one_pos⟩
  | ⟨1, _⟩ => ⟨(i 1).val, (i 1).isLt⟩

/-- The affine map, entry by entry: row of `x` against row of `W`, plus the bias. -/
abbrev affine (x : S100000x128.Idx → EReal) (W : S128x128.Idx → EReal) (b : S1x128.Idx → EReal) : S100000x128.Idx → EReal :=
  fun i => (∑ k : Fin 128, x (arrayX i k) * W (arrayW i k)) + b (arrayB i)

/-! ## The product's operand indices: the left operand is read at (row, k), the right at (k, column) -/

theorem lhs_axis0 (j : S10000x128.Idx) (q : dot_S10000x128_S128x128_S10000x128_1_0_0_1_n_n.contr.Idx) :
    (dot_S10000x128_S128x128_S10000x128_1_0_0_1_n_n.lhsIdx j q 0).val = (j 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs_axis1 (j : S10000x128.Idx) (q : dot_S10000x128_S128x128_S10000x128_1_0_0_1_n_n.contr.Idx) :
    (dot_S10000x128_S128x128_S10000x128_1_0_0_1_n_n.lhsIdx j q 1).val = (q ⟨0, by decide⟩).val :=
  dot_S10000x128_S128x128_S10000x128_1_0_0_1_n_n.lhsIdx_val_of_single rfl j q
theorem rhs_axis0 (j : S10000x128.Idx) (q : dot_S10000x128_S128x128_S10000x128_1_0_0_1_n_n.contr.Idx) :
    (dot_S10000x128_S128x128_S10000x128_1_0_0_1_n_n.rhsIdx j q 0).val = (q ⟨0, by decide⟩).val :=
  dot_S10000x128_S128x128_S10000x128_1_0_0_1_n_n.rhsIdx_val_of_single rfl j q
theorem rhs_axis1 (j : S10000x128.Idx) (q : dot_S10000x128_S128x128_S10000x128_1_0_0_1_n_n.contr.Idx) :
    (dot_S10000x128_S128x128_S10000x128_1_0_0_1_n_n.rhsIdx j q 1).val = (j 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The product of a block with the transposed weights into a zero accumulator, at an entry: the row of the block
    against the row of the weights. -/
theorem product_apply (v0 : Vec Ideal S10000x128 .f32) (v2 : Vec Ideal S128x128 .f32) (j : S10000x128.Idx) :
    matmul (F := Ideal) dot_S10000x128_S128x128_S10000x128_1_0_0_1_n_n none (truncf .bf16 v0 bitsLt_bf16_f32)
        (transpose S128x128 [1, 0] (truncf .bf16 v2 bitsLt_bf16_f32) transposes_S128x128_p1_0_S128x128)
        (constant (F := Ideal) S10000x128 .f32 0x00000000#32) j
      = ∑ k : Fin 128, v0 (blockX j k) * v2 (blockW j k) := by
  simp only [matmul]
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx j ((ValueIdx.contrEquiv1 dot_S10000x128_S128x128_S10000x128_1_0_0_1_n_n 128 rfl rfl).symm k) = blockX j k := funext fun a => Fin.ext (by
    match a with
    | ⟨0, _⟩ => exact lhs_axis0 _ _
    | ⟨1, _⟩ => exact (lhs_axis1 _ _).trans hk)
  have er : transpose S128x128 [1, 0] (truncf (F := Ideal) .bf16 v2 bitsLt_bf16_f32) transposes_S128x128_p1_0_S128x128
        (dot_S10000x128_S128x128_S10000x128_1_0_0_1_n_n.rhsIdx j ((ValueIdx.contrEquiv1 dot_S10000x128_S128x128_S10000x128_1_0_0_1_n_n 128 rfl rfl).symm k)) = v2 (blockW j k) :=
    (transpose_apply [1, 0] (truncf (F := Ideal) .bf16 v2 bitsLt_bf16_f32) transposes_S128x128_p1_0_S128x128
      (dot_S10000x128_S128x128_S10000x128_1_0_0_1_n_n.rhsIdx j ((ValueIdx.contrEquiv1 dot_S10000x128_S128x128_S10000x128_1_0_0_1_n_n 128 rfl rfl).symm k)) (blockW j k) (fun b => by
      match b with
      | ⟨0, _⟩ => exact ((rhs_axis0 j _).trans hk).symm
      | ⟨1, _⟩ => exact (rhs_axis1 j _).symm)).trans rfl
  rw [el, er]
  rfl

/-- The body's stored value at an entry. -/
theorem stored_apply (v0 : Vec Ideal S10000x128 .f32) (v2 : Vec Ideal S128x128 .f32) (v6 : Vec Ideal S1x128 .f32) (j : S10000x128.Idx) :
    k0_pay1 (F := Ideal) v0 v2 v6 j = (∑ k : Fin 128, v0 (blockX j k) * v2 (blockW j k)) + v6 (blockB j) := by
  unfold k0_pay1
  simp only [shapeCast_self]
  show matmul (F := Ideal) dot_S10000x128_S128x128_S10000x128_1_0_0_1_n_n none (truncf .bf16 v0 bitsLt_bf16_f32)
        (transpose S128x128 [1, 0] (truncf .bf16 v2 bitsLt_bf16_f32) transposes_S128x128_p1_0_S128x128)
        (constant (F := Ideal) S10000x128 .f32 0x00000000#32) j
      + broadcastTo S10000x128 v6 broadcasts_S1x128_S10000x128 j = _
  rw [product_apply, broadcastTo_apply v6 broadcasts_S1x128_S10000x128 j (blockB j) (fun a => match a with
    | ⟨0, _⟩ => by show 0 = if (1 : Nat) = 1 then 0 else (j 0).val; rw [if_pos rfl]
    | ⟨1, _⟩ => by show (j 1).val = if (128 : Nat) = 1 then 0 else (j 1).val; rw [if_neg (by decide)])]

/-! ## From blocks to the array -/

/-- The three input arrays as the call finds them, at their literal types. -/
abbrev xArr (c : Dev nD) : S100000x128.Idx → EReal := V c main_arg0
abbrev wArr (c : Dev nD) : S128x128.Idx → EReal := V c main_arg1
abbrev bArr (c : Dev nD) : S1x128.Idx → EReal := V c main_v0

/-- Over the grid: `x`'s block and the output's sit at the same row block, which is below 10, at column block 0; the
    weights and the bias are always block (0, 0). -/
theorem block_index : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) ≤ 9
    ∧ win0_3.index t (1 : Fin 2) = 0 :=
  (by decide +kernel : ∀ t : Fin grid0.N, _)

/-- Every row block is some point's. -/
theorem block_onto : ∀ q : Fin 10, ∃ t : Fin cfg0.N, win0_3.index t = ![q.val, 0] :=
  (by decide +kernel : ∀ q : Fin 10, ∃ t : Fin grid0.N, win0_3.index t = ![q.val, 0])

/-- What point `t` writes back is block `t` of the affine map of the three input arrays as the call finds them. -/
theorem flushed_eq (c : Dev nD) (t : Fin cfg0.N) :
    (dat0 V c).flushed 3 t = ((cfg0.win 3).blk t).view.read (Elt Ideal) (affine (xArr V c) (wArr V c) (bArr V c)) := by
  show (cfg0.win 3).cut (grid0.coords t) ((dat0 V c).after 3 t) = _
  rw [after0_3]
  unfold out0_3
  rw [View.canon_unit_zero origin]
  simp only [View.ld_unit_zero (S := S10000x128) origin, View.ld_unit_zero (S := S128x128) origin, View.ld_unit_zero (S := S1x128) origin]
  obtain ⟨e0, e1, e2, e3, e4, e5, e6, e7⟩ := block_index t
  funext j
  refine (stored_apply (iblk0 V c 0 t) (iblk0 V c 1 t) (iblk0 V c 2 t) j).trans ?_
  show (∑ k : Fin 128, xArr V c (((cfg0.win 0).blk t).view.emb (blockX j k)) * wArr V c (((cfg0.win 1).blk t).view.emb (blockW j k)))
        + bArr V c (((cfg0.win 2).blk t).view.emb (blockB j))
    = (∑ k : Fin 128, xArr V c (arrayX (((cfg0.win 3).blk t).view.emb j) k) * wArr V c (arrayW (((cfg0.win 3).blk t).view.emb j) k))
        + bArr V c (arrayB (((cfg0.win 3).blk t).view.emb j))
  have hx : ∀ k : Fin 128, ((cfg0.win 0).blk t).view.emb (blockX j k) = arrayX (((cfg0.win 3).blk t).view.emb j) k := fun k => by
    funext a; apply Fin.ext
    match a with
    | ⟨0, _⟩ => show win0_0.index t (0 : Fin 2) * 10000 + 1 * (j 0).val = win0_3.index t (0 : Fin 2) * 10000 + 1 * (j 0).val; omega
    | ⟨1, _⟩ => show win0_0.index t (1 : Fin 2) * 128 + 1 * k.val = k.val; omega
  have hw : ∀ k : Fin 128, ((cfg0.win 1).blk t).view.emb (blockW j k) = arrayW (((cfg0.win 3).blk t).view.emb j) k := fun k => by
    funext a; apply Fin.ext
    match a with
    | ⟨0, _⟩ => show win0_1.index t (0 : Fin 2) * 128 + 1 * (j 1).val = win0_3.index t (1 : Fin 2) * 128 + 1 * (j 1).val; omega
    | ⟨1, _⟩ => show win0_1.index t (1 : Fin 2) * 128 + 1 * k.val = k.val; omega
  have hb : ((cfg0.win 2).blk t).view.emb (blockB j) = arrayB (((cfg0.win 3).blk t).view.emb j) := by
    funext a; apply Fin.ext
    match a with
    | ⟨0, _⟩ => show win0_2.index t (0 : Fin 2) * 1 + 1 * 0 = 0; omega
    | ⟨1, _⟩ => show win0_2.index t (1 : Fin 2) * 128 + 1 * (j 1).val = win0_3.index t (1 : Fin 2) * 128 + 1 * (j 1).val; omega
  rw [hb]
  exact congrArg (· + _) (Finset.sum_congr rfl fun k _ => by rw [hx k, hw k])

/-- An index of the output array is in point `t`'s block iff each coordinate is in the block's range on its axis. -/
theorem mem_block (t : Fin cfg0.N) (i : S100000x128.Idx) :
    i ∈ ((cfg0.win 3).blk t).view.set ↔ ∀ a : Fin 2, win0_3.index t a * S10000x128.size a ≤ (i a).val ∧ (i a).val < win0_3.index t a * S10000x128.size a + S10000x128.size a := by
  show i ∈ ((View.whole main_v1).slice (win0_3.rect t)).set ↔ _
  rw [View.set_slice_whole, Rect.mem_set_unit]
  exact Iff.rfl

/-- The ten blocks cover the output array: row `r` is in block `r / 10000`. -/
theorem covered (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ := block_onto ⟨(i 0).val / 10000, by omega⟩
  have q0 : win0_3.index t (0 : Fin 2) = (i 0).val / 10000 := congrFun ht 0
  have q1 : win0_3.index t (1 : Fin 2) = 0 := congrFun ht 1
  refine ⟨t, flush0_3 t, ?_⟩
  rw [mem_block]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 128 ≤ (i 1).val ∧ (i 1).val < win0_3.index t (1 : Fin 2) * 128 + 128; omega

/-- The output array after the call is the affine map of the three input arrays as the call finds them. -/
theorem final (c : Dev nD) : (dat0 V c).arrAt 3 cfg0.N = affine (xArr V c) (wArr V c) (bArr V c) :=
  (dat0 V c).arrAt_eq_of_cover 3 (affine (xArr V c) (wArr V c) (bArr V c)) (fun t _ => flushed_eq V c t) covered

/-- The same, with the three input arrays spelt as the boundary contents' reads. -/
theorem final_at (c : Dev nD) : (dat0 V c).arrAt 3 cfg0.N = affine (V c main_arg0) (V c main_arg1) (V c main_v0) := final V c

end Cert.KernelIdeal.LinearRegion

end
-- ==== Proof.ScaleRegion.lean ====
/-
  The second call's value. Its body multiplies each row of a 16000 × 128 block by that row's one weight (a 16000 × 1
  block broadcast along the columns) and stores the product over the output block; block `t` of all three windows is
  rows 16000·t … 16000·t + 15999. So what point `t` writes back is block `t` of ONE whole-array function — entry (e, d)
  is weight e times entry (e, d) —, the hundred blocks tile the 1600000 × 128 output, and the output array ends at that
  function of the two input arrays.
-/
import proofs.«127006_j23630910062645_1_alg».proof.Proof.Gen.KernelIdeal.Frame
import Idealize.ShloMosaic.Lib.Pipeline.Value

set_option maxRecDepth 16384

noncomputable section

namespace Cert.KernelIdeal.ScaleRegion

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))

theorem origin : (![0, 0] : Fin 2 → Nat) = fun _ => 0 := funext fun a => by fin_cases a <;> rfl

/-- The weight column's index for an entry of a block: same row, column 0. -/
abbrev blockRow (j : S16000x128.Idx) : S16000x1.Idx := fun a => match a with
  | ⟨0, _⟩ => ⟨(j 0).val, (j 0).isLt⟩
  | ⟨1, _⟩ => ⟨0, Nat.one_pos⟩

/-- The weight column's index for an entry of the whole array: same row, column 0. -/
abbrev arrayRow (i : S1600000x128.Idx) : S1600000x1.Idx := fun a => match a with
  | ⟨0, _⟩ => ⟨(i 0).val, (i 0).isLt⟩
  | ⟨1, _⟩ => ⟨0, Nat.one_pos⟩

/-- Each row of `g` times that row's weight. -/
abbrev scaleRows (w : S1600000x1.Idx → Elt F .f32) (g : S1600000x128.Idx → Elt F .f32) : S1600000x128.Idx → Elt F .f32 :=
  fun i => FloatOps.mulf (w (arrayRow i)) (g i)

/-- The body's stored value at an entry: the row's weight times the entry (the shape casts are to the same shapes). -/
theorem stored_apply (x0 : Vec F S16000x1 .f32) (x1 : Vec F S16000x128 .f32) (j : S16000x128.Idx) :
    k1_pay1 x0 x1 j = FloatOps.mulf (x0 (blockRow j)) (x1 j) := by
  unfold k1_pay1
  simp only [shapeCast_self]
  show FloatOps.mulf (broadcastTo S16000x128 x0 broadcasts_S16000x1_S16000x128 j) (x1 j) = _
  rw [broadcastTo_apply x0 broadcasts_S16000x1_S16000x128 j (blockRow j) (fun a => match a with
    | ⟨0, _⟩ => by show (j 0).val = if (16000 : Nat) = 1 then 0 else (j 0).val; rw [if_neg (by decide)]
    | ⟨1, _⟩ => by show 0 = if (1 : Nat) = 1 then 0 else (j 1).val; rw [if_pos rfl])]

/-- Over the grid: the three windows sit at the same row block, which is below 100; the column block is 0. -/
theorem block_index : ∀ t : Fin cfg1.N, win1_0.index t (0 : Fin 2) = win1_2.index t (0 : Fin 2)
    ∧ win1_0.index t (1 : Fin 2) = 0
    ∧ win1_1.index t (0 : Fin 2) = win1_2.index t (0 : Fin 2)
    ∧ win1_1.index t (1 : Fin 2) = win1_2.index t (1 : Fin 2)
    ∧ win1_2.index t (0 : Fin 2) ≤ 99
    ∧ win1_2.index t (1 : Fin 2) = 0 :=
  (by decide +kernel : ∀ t : Fin grid1.N, _)

/-- Every row block is some point's. -/
theorem block_onto : ∀ q : Fin 100, ∃ t : Fin cfg1.N, win1_2.index t = ![q.val, 0] :=
  (by decide +kernel : ∀ q : Fin 100, ∃ t : Fin grid1.N, win1_2.index t = ![q.val, 0])

/-- What point `t` writes back is block `t` of the row-scaled array, of the two input arrays as the call finds them. -/
theorem flushed_eq (c : Dev nD) (t : Fin cfg1.N) :
    (dat1 V c).flushed 2 t = ((cfg1.win 2).blk t).view.read (Elt F) (scaleRows (V c main_v9) (V c main_v8)) := by
  show (cfg1.win 2).cut (grid1.coords t) ((dat1 V c).after 2 t) = _
  rw [after1_2]
  unfold out1_2
  rw [View.canon_unit_zero origin]
  simp only [View.ld_unit_zero (S := S16000x1) origin, View.ld_unit_zero (S := S16000x128) origin]
  obtain ⟨e0, e1, e2, e3, e4, e5⟩ := block_index t
  funext j
  refine (stored_apply (F := F) (iblk1 V c 0 t) (iblk1 V c 1 t) j).trans ?_
  show FloatOps.mulf (V c main_v9 (((cfg1.win 0).blk t).view.emb (blockRow j))) (V c main_v8 (((cfg1.win 1).blk t).view.emb j))
    = FloatOps.mulf (V c main_v9 (arrayRow (((cfg1.win 2).blk t).view.emb j))) (V c main_v8 (((cfg1.win 2).blk t).view.emb j))
  have h0 : ((cfg1.win 0).blk t).view.emb (blockRow j) = arrayRow (((cfg1.win 2).blk t).view.emb j) := by
    funext a; apply Fin.ext
    match a with
    | ⟨0, _⟩ => show win1_0.index t (0 : Fin 2) * 16000 + 1 * (j 0).val = win1_2.index t (0 : Fin 2) * 16000 + 1 * (j 0).val; omega
    | ⟨1, _⟩ => show win1_0.index t (1 : Fin 2) * 1 + 1 * 0 = 0; omega
  have h1 : ((cfg1.win 1).blk t).view.emb j = ((cfg1.win 2).blk t).view.emb j := by
    funext a; apply Fin.ext
    match a with
    | ⟨0, _⟩ => show win1_1.index t (0 : Fin 2) * 16000 + 1 * (j 0).val = win1_2.index t (0 : Fin 2) * 16000 + 1 * (j 0).val; omega
    | ⟨1, _⟩ => show win1_1.index t (1 : Fin 2) * 128 + 1 * (j 1).val = win1_2.index t (1 : Fin 2) * 128 + 1 * (j 1).val; omega
  rw [h0, h1]

/-- An index of the output array is in point `t`'s block iff each coordinate is in the block's range on its axis. -/
theorem mem_block (t : Fin cfg1.N) (i : S1600000x128.Idx) :
    i ∈ ((cfg1.win 2).blk t).view.set ↔ ∀ a : Fin 2, win1_2.index t a * S16000x128.size a ≤ (i a).val ∧ (i a).val < win1_2.index t a * S16000x128.size a + S16000x128.size a := by
  show i ∈ ((View.whole main_v10).slice (win1_2.rect t)).set ↔ _
  rw [View.set_slice_whole, Rect.mem_set_unit]
  exact Iff.rfl

/-- The hundred blocks cover the output array: row `e` is in block `e / 16000`. -/
theorem covered (i : S1600000x128.Idx) :
    ∃ t : Fin cfg1.N, (cfg1.win 2).flush t = true ∧ i ∈ ((cfg1.win 2).blk t).view.set := by
  have hi0 : (i 0).val < 1600000 := (i 0).isLt
  have hi1 : (i 1).val < 128 := (i 1).isLt
  obtain ⟨t, ht⟩ := block_onto ⟨(i 0).val / 16000, by omega⟩
  have q0 : win1_2.index t (0 : Fin 2) = (i 0).val / 16000 := congrFun ht 0
  have q1 : win1_2.index t (1 : Fin 2) = 0 := congrFun ht 1
  refine ⟨t, flush1_2 t, ?_⟩
  rw [mem_block]
  intro a
  match a with
  | ⟨0, _⟩ => show win1_2.index t (0 : Fin 2) * 16000 ≤ (i 0).val ∧ (i 0).val < win1_2.index t (0 : Fin 2) * 16000 + 16000; omega
  | ⟨1, _⟩ => show win1_2.index t (1 : Fin 2) * 128 ≤ (i 1).val ∧ (i 1).val < win1_2.index t (1 : Fin 2) * 128 + 128; omega

/-- The output array after the call is the row-scaled array of the two input arrays as the call finds them. -/
theorem final (c : Dev nD) : (dat1 V c).arrAt 2 cfg1.N = scaleRows (V c main_v9) (V c main_v8) :=
  (dat1 V c).arrAt_eq_of_cover 2 (scaleRows (V c main_v9) (V c main_v8)) (fun t _ => flushed_eq V c t) covered

end Cert.KernelIdeal.ScaleRegion

end
-- ==== Proof.ReluRegion.lean ====
/-
  The third call's value. Its body takes the positive part of each entry of its 10000 × 128 input block and stores it
  over the output block; block `t` of both windows is rows 10000·t … 10000·t + 9999. So what point `t` writes back
  is block `t` of ONE whole-array function of the input array — the entrywise maximum with zero —, the ten blocks tile
  the 100000 × 128 output, and the output array ends at that function of the input array.
-/
import proofs.«127006_j23630910062645_1_alg».proof.Proof.Gen.KernelIdeal.Frame
import Idealize.ShloMosaic.Lib.Pipeline.Value

set_option maxRecDepth 16384

noncomputable section

namespace Cert.KernelIdeal.ReluRegion

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))

theorem origin : (![0, 0] : Fin 2 → Nat) = fun _ => 0 := funext fun a => by fin_cases a <;> rfl

/-- The positive part of an array, entry by entry. -/
abbrev posPart (a : S100000x128.Idx → Elt F .f32) : S100000x128.Idx → Elt F .f32 :=
  fun i => FloatOps.maximumf (a i) (Scalar.ofBits .f32 0x00000000#32)

/-- The body's stored value is the entrywise maximum of the loaded block with zero (the shape cast is to the same shape). -/
theorem stored_eq (x0 : Vec F S10000x128 .f32) :
    k2_pay1 x0 = maximumf x0 (broadcast S10000x128 (Scalar.ofBits .f32 0x00000000#32)) := by
  unfold k2_pay1
  rw [shapeCast_self]

/-- Over the grid: input and output blocks sit at the same row block, which is below 10, and at column block 0. -/
theorem block_index : ∀ t : Fin cfg2.N, win2_0.index t (0 : Fin 2) = win2_1.index t (0 : Fin 2)
    ∧ win2_0.index t (1 : Fin 2) = win2_1.index t (1 : Fin 2)
    ∧ win2_1.index t (0 : Fin 2) ≤ 9
    ∧ win2_1.index t (1 : Fin 2) = 0 :=
  (by decide +kernel : ∀ t : Fin grid2.N, _)

/-- Every row block is some point's. -/
theorem block_onto : ∀ q : Fin 10, ∃ t : Fin cfg2.N, win2_1.index t = ![q.val, 0] :=
  (by decide +kernel : ∀ q : Fin 10, ∃ t : Fin grid2.N, win2_1.index t = ![q.val, 0])

/-- What point `t` writes back is block `t` of the positive part of the input array as the call finds it. -/
theorem flushed_eq (c : Dev nD) (t : Fin cfg2.N) :
    (dat2 V c).flushed 1 t = ((cfg2.win 1).blk t).view.read (Elt F) (posPart (V c main_v13)) := by
  show (cfg2.win 1).cut (grid2.coords t) ((dat2 V c).after 1 t) = _
  rw [after2_1]
  unfold out2_1
  rw [View.canon_unit_zero origin]
  simp only [View.ld_unit_zero (S := S10000x128) origin]
  rw [stored_eq]
  obtain ⟨e0, e1, e2, e3⟩ := block_index t
  funext j
  show FloatOps.maximumf (V c main_v13 (((cfg2.win 0).blk t).view.emb j)) (Scalar.ofBits .f32 0x00000000#32)
    = FloatOps.maximumf (V c main_v13 (((cfg2.win 1).blk t).view.emb j)) (Scalar.ofBits .f32 0x00000000#32)
  have h0 : ((cfg2.win 0).blk t).view.emb j = ((cfg2.win 1).blk t).view.emb j := by
    funext a; apply Fin.ext
    match a with
    | ⟨0, _⟩ => show win2_0.index t (0 : Fin 2) * 10000 + 1 * (j 0).val = win2_1.index t (0 : Fin 2) * 10000 + 1 * (j 0).val; omega
    | ⟨1, _⟩ => show win2_0.index t (1 : Fin 2) * 128 + 1 * (j 1).val = win2_1.index t (1 : Fin 2) * 128 + 1 * (j 1).val; omega
  rw [h0]

/-- An index of the output array is in point `t`'s block iff each coordinate is in the block's range on its axis. -/
theorem mem_block (t : Fin cfg2.N) (i : S100000x128.Idx) :
    i ∈ ((cfg2.win 1).blk t).view.set ↔ ∀ a : Fin 2, win2_1.index t a * S10000x128.size a ≤ (i a).val ∧ (i a).val < win2_1.index t a * S10000x128.size a + S10000x128.size a := by
  show i ∈ ((View.whole main_v14).slice (win2_1.rect t)).set ↔ _
  rw [View.set_slice_whole, Rect.mem_set_unit]
  exact Iff.rfl

/-- The ten blocks cover the output array: row `r` is in block `r / 10000`. -/
theorem covered (i : S100000x128.Idx) :
    ∃ t : Fin cfg2.N, (cfg2.win 1).flush t = true ∧ i ∈ ((cfg2.win 1).blk t).view.set := by
  have hi0 : (i 0).val < 100000 := (i 0).isLt
  have hi1 : (i 1).val < 128 := (i 1).isLt
  obtain ⟨t, ht⟩ := block_onto ⟨(i 0).val / 10000, by omega⟩
  have q0 : win2_1.index t (0 : Fin 2) = (i 0).val / 10000 := congrFun ht 0
  have q1 : win2_1.index t (1 : Fin 2) = 0 := congrFun ht 1
  refine ⟨t, flush2_1 t, ?_⟩
  rw [mem_block]
  intro a
  match a with
  | ⟨0, _⟩ => show win2_1.index t (0 : Fin 2) * 10000 ≤ (i 0).val ∧ (i 0).val < win2_1.index t (0 : Fin 2) * 10000 + 10000; omega
  | ⟨1, _⟩ => show win2_1.index t (1 : Fin 2) * 128 ≤ (i 1).val ∧ (i 1).val < win2_1.index t (1 : Fin 2) * 128 + 128; omega

/-- The output array after the call is the positive part of the input array as the call finds it. -/
theorem final (c : Dev nD) : (dat2 V c).arrAt 1 cfg2.N = posPart (V c main_v13) :=
  (dat2 V c).arrAt_eq_of_cover 1 (posPart (V c main_v13)) (fun t _ => flushed_eq V c t) covered

end Cert.KernelIdeal.ReluRegion

end
-- ==== Proof.Boundaries.lean ====
/-
  The contents of the buffers at the boundaries between the three calls. Between the calls the program runs host
  operations only: before the first call the bias is reshaped to one row; between the first and the second the source
  indices are normalised (a negative index has the node count added), the first call's output is gathered at them and
  the edge weights are reshaped to a column; between the second and the third the second call's output is scatter-added
  at the destination indices into zeros. No call and no host operation writes an argument, so each argument is read
  at every boundary as launched; each call's output array is read at its exit as what the call's write-backs leave.
-/
import proofs.«127006_j23630910062645_1_alg».proof.Proof.Gen.KernelIdeal.Frame
import Idealize.ShloMosaic.Lib.StableHlo.Run

set_option maxRecDepth 16384

noncomputable section

namespace Cert.KernelIdeal.Boundaries

open Cert.KernelIdeal Cert.KernelIdeal.Gen
open Idealize.ShloMosaic Idealize.ShloMosaic.TcCoe Idealize.SL.Sem Idealize.ShloMosaic.StableHlo
open Idealize.ShloMosaic.Pipeline (Dat Cfg Window)

variable {F : FTy → Type} [FloatOps F]
variable (m : (ℓ : Loc nD τ sig) → Buf (Elt F) ℓ) (ρ : Dev nD → PrngReg)

/-! ## The first call's entry: after the bias reshape -/

theorem entry0_x (c : Dev nD) : V1 m ρ c main_arg0 = m ((c : Thread nD τ).loc main_arg0) := by
  show StableHlo.after hostOps0 (W0 m ρ c) (Proc.devRef .tc main_arg0) = _
  dsimp only [hostOps0]
  after_results
theorem entry0_w (c : Dev nD) : V1 m ρ c main_arg1 = m ((c : Thread nD τ).loc main_arg1) := by
  show StableHlo.after hostOps0 (W0 m ρ c) (Proc.devRef .tc main_arg1) = _
  dsimp only [hostOps0]
  after_results
theorem entry0_b (c : Dev nD) : V1 m ρ c main_v0 = shapeCast S1x128 (m ((c : Thread nD τ).loc main_arg2)) shapeCasts_S128_S1x128 := by
  show StableHlo.after hostOps0 (W0 m ρ c) (Proc.devRef .tc main_v0) = _
  dsimp only [hostOps0]
  after_results
  rfl

/-- The first call's output array at its exit. -/
theorem exit0 (c : Dev nD) : V2 m ρ c main_v1 = (dat0 (V1 m ρ) c).arrAt 3 cfg0.N := W2_arr m ρ c 3

/-! ## The second call's entry: after the index normalisation, the gather and the weight reshape -/

theorem W2_arg3 (c : Dev nD) : W2 m ρ c (Proc.devRef .tc main_arg3) = m ((c : Thread nD τ).loc main_arg3) :=
  (W2_of_ne m ρ c main_arg3 (by decide)).trans (by
    show StableHlo.after hostOps0 (W0 m ρ c) (Proc.devRef .tc main_arg3) = _
    dsimp only [hostOps0]
    after_results)
theorem W2_arg4 (c : Dev nD) : W2 m ρ c (Proc.devRef .tc main_arg4) = m ((c : Thread nD τ).loc main_arg4) :=
  (W2_of_ne m ρ c main_arg4 (by decide)).trans (by
    show StableHlo.after hostOps0 (W0 m ρ c) (Proc.devRef .tc main_arg4) = _
    dsimp only [hostOps0]
    after_results)
theorem W2_arg5 (c : Dev nD) : W2 m ρ c (Proc.devRef .tc main_arg5) = m ((c : Thread nD τ).loc main_arg5) :=
  (W2_of_ne m ρ c main_arg5 (by decide)).trans (by
    show StableHlo.after hostOps0 (W0 m ρ c) (Proc.devRef .tc main_arg5) = _
    dsimp only [hostOps0]
    after_results)

theorem entry1_w (c : Dev nD) : V3 m ρ c main_v9 = shapeCast S1600000x1 (m ((c : Thread nD τ).loc main_arg3)) shapeCasts_S1600000_S1600000x1 := by
  show StableHlo.after hostOps1 (W2 m ρ c) (Proc.devRef .tc main_v9) = _
  dsimp only [hostOps1]
  after_results
  rw [W2_arg3]
  rfl
theorem entry1_g (c : Dev nD) : V3 m ρ c main_v8
    = Host.gather gather_S100000x128_S1600000x1_S1600000x128_1_0_n_n_0_1_1128 (V2 m ρ c main_v1) (broadcastInDim S1600000x1 ![0] bcast_S1600000_S1600000x1_0 (select (cmpi .slt (m ((c : Thread nD τ).loc main_arg4)) (broadcastInDim S1600000 ![] bcast_S_S1600000 (constantI S_ 32 0#32))) (addi (m ((c : Thread nD τ).loc main_arg4)) (broadcastInDim S1600000 ![] bcast_S_S1600000 (constantI S_ 32 100000#32))) (m ((c : Thread nD τ).loc main_arg4)))) := by
  show StableHlo.after hostOps1 (W2 m ρ c) (Proc.devRef .tc main_v8) = _
  dsimp only [hostOps1]
  after_results
  rw [W2_arg4]

/-- The second call's output array at its exit. -/
theorem exit1 (c : Dev nD) : V4 m ρ c main_v10 = (dat1 (V3 m ρ) c).arrAt 2 cfg1.N := W4_arr m ρ c 2

/-! ## The third call's entry: after the scatter-add into zeros -/

theorem W4_arg5 (c : Dev nD) : W4 m ρ c (Proc.devRef .tc main_arg5) = m ((c : Thread nD τ).loc main_arg5) :=
  (W4_of_ne m ρ c main_arg5 (by decide)).trans (by
    show StableHlo.after hostOps1 (W2 m ρ c) (Proc.devRef .tc main_arg5) = _
    dsimp only [hostOps1]
    after_results
    exact W2_arg5 m ρ c)

theorem entry2 (c : Dev nD) : V5 m ρ c main_v13
    = Host.scatterAdd scatter_S100000x128_S1600000x1_S1600000x128_1_0_0_1 (broadcastInDim S100000x128 ![] bcast_S_S100000x128 (constant S_ .f32 0x00000000#32))
        (broadcastInDim S1600000x1 ![0] bcast_S1600000_S1600000x1_0 (m ((c : Thread nD τ).loc main_arg5))) (V4 m ρ c main_v10) := by
  show StableHlo.after hostOps2 (W4 m ρ c) (Proc.devRef .tc main_v13) = _
  dsimp only [hostOps2]
  after_results
  rw [W4_arg5]

/-- The third call's output array at its exit. -/
theorem exit2 (c : Dev nD) : V6 m ρ c main_v14 = (dat2 (V5 m ρ) c).arrAt 1 cfg2.N := W6_arr m ρ c 1

end Cert.KernelIdeal.Boundaries

end
-- ==== Proof.KernelValue.lean ====
/-
  The program's result as ONE function of its six arguments, over the extended reals: the affine map of `x`, gathered
  at the normalised source indices, each gathered row scaled by its edge weight, scatter-added at the destination indices
  into zeros, and the positive part of that. The three calls' values and the host operations between them compose to it.
-/
import proofs.«127006_j23630910062645_1_alg».proof.Proof.LinearRegion
import proofs.«127006_j23630910062645_1_alg».proof.Proof.ScaleRegion
import proofs.«127006_j23630910062645_1_alg».proof.Proof.ReluRegion
import proofs.«127006_j23630910062645_1_alg».proof.Proof.Boundaries

set_option maxRecDepth 16384

noncomputable section

namespace Cert.KernelIdeal.Whole

open Cert.KernelIdeal Cert.KernelIdeal.Gen
open Idealize.ShloMosaic Idealize.ShloMosaic.TcCoe Idealize.SL.Sem

/-- The result array as a function of the arguments `x`, `W`, `b`, the edge weights and the two index arrays. -/
def result (x : (⟨S100000x128, .f32⟩ : BufTy).Contents (Elt Ideal)) (W : (⟨S128x128, .f32⟩ : BufTy).Contents (Elt Ideal)) (b : (⟨S128, .f32⟩ : BufTy).Contents (Elt Ideal))
    (w : (⟨S1600000, .f32⟩ : BufTy).Contents (Elt Ideal)) (src dst : (⟨S1600000, .i32⟩ : BufTy).Contents (Elt Ideal)) : (⟨S100000x128, .f32⟩ : BufTy).Contents (Elt Ideal) :=
  ReluRegion.posPart (F := Ideal)
    (Host.scatterAdd (F := Ideal) scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 dst)
      (ScaleRegion.scaleRows (F := Ideal) (shapeCast S1600000x1 w shapeCasts_S1600000_S1600000x1)
        (Host.gather gather_S100000x128_S1600000x1_S1600000x128_1_0_n_n_0_1_1128
          (LinearRegion.affine x W (shapeCast S1x128 b shapeCasts_S128_S1x128))
          (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src)))))

/-- The result array's final contents are that function of the launch contents of the arguments. -/
theorem result_eq (m : (ℓ : Loc nD τ sig) → Buf (Elt Ideal) ℓ) (ρ : Dev nD → PrngReg) (c : Dev nD) :
    V6 m ρ c main_v14 = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [Boundaries.exit2, ReluRegion.final, Boundaries.entry2, Boundaries.exit1, ScaleRegion.final,
    Boundaries.entry1_w, Boundaries.entry1_g, Boundaries.exit0, LinearRegion.final_at,
    Boundaries.entry0_x, Boundaries.entry0_w, Boundaries.entry0_b]
  rfl

end Cert.KernelIdeal.Whole

end
-- ==== Proof.Bridge.lean ====
/-
  The kernel's result function is the reference's, over the extended reals. Stage by stage: the affine map is the
  reference's `dot_general` plus the broadcast bias (the same sum over the contracted axis, the bias row read at the
  entry's column); both programs gather it with the same dimension numbers at the same normalised indices; scaling row
  `e` by weight `e` is the reference's product with the weights broadcast along the columns; both scatter-add with
  the same dimension numbers at the same indices into zeros; and the positive part is the reference's maximum with a
  zero array. No step uses more than reading both sides at an index, so finiteness of the inputs is not needed.
-/
import proofs.«127006_j23630910062645_1_alg».proof.Proof.KernelValue
import proofs.«127006_j23630910062645_1_alg».proof.Proof.Gen.ReferenceIdeal.Read

set_option maxRecDepth 16384

noncomputable section

namespace Cert.Bridge

open Idealize.ShloMosaic Idealize.ShloMosaic.TcCoe Idealize.SL.Sem
open Cert.ReferenceIdeal.Read

/-- The affine map with the bias reshaped to a row is the reference's `x · Wᵀ + b`. -/
theorem affine_eq (x : (⟨Cert.ReferenceIdeal.S100000x128, .f32⟩ : BufTy).Contents (Elt Ideal)) (W : (⟨Cert.ReferenceIdeal.S128x128, .f32⟩ : BufTy).Contents (Elt Ideal)) (b : (⟨Cert.ReferenceIdeal.S128, .f32⟩ : BufTy).Contents (Elt Ideal)) :
    Cert.KernelIdeal.LinearRegion.affine x W (shapeCast Cert.KernelIdeal.S1x128 b Cert.KernelIdeal.Gen.shapeCasts_S128_S1x128) = val_main_v3 (F := Ideal) x W b := by
  funext i
  rw [val_main_v3_apply, val_main_v0_apply, val_main_v2_apply, val_main_v1_apply]
  show (∑ k : Fin 128, x (Cert.KernelIdeal.LinearRegion.arrayX i k) * W (Cert.KernelIdeal.LinearRegion.arrayW i k))
        + shapeCast Cert.KernelIdeal.S1x128 b Cert.KernelIdeal.Gen.shapeCasts_S128_S1x128 (Cert.KernelIdeal.LinearRegion.arrayB i)
      = (∑ k : Fin 128, x (lidx_main_v0 i k) * W (ridx_main_v0 i k)) + b (idx_main_v1 (idx_main_v2 i))
  rw [shapeCast_apply b Cert.KernelIdeal.Gen.shapeCasts_S128_S1x128 (Cert.KernelIdeal.LinearRegion.arrayB i) (idx_main_v1 (idx_main_v2 i)) (by
    rw [Shape.rowMajor_val_one, Shape.rowMajor_val_two]
    show (i 1).val = 0 * 128 + (i 1).val
    omega)]
  rfl

/-- The gathered rows are the reference's. -/
theorem gathered_eq (x : (⟨Cert.ReferenceIdeal.S100000x128, .f32⟩ : BufTy).Contents (Elt Ideal)) (W : (⟨Cert.ReferenceIdeal.S128x128, .f32⟩ : BufTy).Contents (Elt Ideal)) (b : (⟨Cert.ReferenceIdeal.S128, .f32⟩ : BufTy).Contents (Elt Ideal)) (src : (⟨Cert.ReferenceIdeal.S1600000, .i32⟩ : BufTy).Contents (Elt Ideal)) :
    Host.gather Cert.KernelIdeal.gather_S100000x128_S1600000x1_S1600000x128_1_0_n_n_0_1_1128 (Cert.KernelIdeal.LinearRegion.affine x W (shapeCast Cert.KernelIdeal.S1x128 b Cert.KernelIdeal.Gen.shapeCasts_S128_S1x128))
        (broadcastInDim Cert.KernelIdeal.S1600000x1 ![0] Cert.KernelIdeal.Gen.bcast_S1600000_S1600000x1_0 (select (cmpi .slt src (broadcastInDim Cert.KernelIdeal.S1600000 ![] Cert.KernelIdeal.Gen.bcast_S_S1600000 (constantI Cert.KernelIdeal.S_ 32 0#32))) (addi src (broadcastInDim Cert.KernelIdeal.S1600000 ![] Cert.KernelIdeal.Gen.bcast_S_S1600000 (constantI Cert.KernelIdeal.S_ 32 100000#32))) src))
      = val_main_v11 (F := Ideal) x W b src := by
  rw [affine_eq]
  rfl

/-- Scaling each row by its weight (the weights reshaped to a column) is the reference's product with the weights
    broadcast along the columns. -/
theorem scaled_eq (w : (⟨Cert.ReferenceIdeal.S1600000, .f32⟩ : BufTy).Contents (Elt Ideal)) (G : (⟨Cert.ReferenceIdeal.S1600000x128, .f32⟩ : BufTy).Contents (Elt Ideal)) :
    Cert.KernelIdeal.ScaleRegion.scaleRows (F := Ideal) (shapeCast Cert.KernelIdeal.S1600000x1 w Cert.KernelIdeal.Gen.shapeCasts_S1600000_S1600000x1) G
      = mulf (F := Ideal) (φ := .f32) (val_main_v12 (F := Ideal) w) G := by
  funext i
  show FloatOps.mulf (F := Ideal) (φ := .f32) (shapeCast Cert.KernelIdeal.S1600000x1 w Cert.KernelIdeal.Gen.shapeCasts_S1600000_S1600000x1 (Cert.KernelIdeal.ScaleRegion.arrayRow i)) (G i)
      = FloatOps.mulf (F := Ideal) (φ := .f32) (val_main_v12 (F := Ideal) w i) (G i)
  rw [val_main_v12_apply, val_main_v4_apply,
    shapeCast_apply w Cert.KernelIdeal.Gen.shapeCasts_S1600000_S1600000x1 (Cert.KernelIdeal.ScaleRegion.arrayRow i) (idx_main_v4 (idx_main_v12 i)) (by
      rw [Shape.rowMajor_val_one, Shape.rowMajor_val_two]
      show (i 0).val = (i 0).val * 1 + 0
      omega)]

/-- The positive part is the reference's maximum with the zero array. -/
theorem posPart_eq (A : (⟨Cert.ReferenceIdeal.S100000x128, .f32⟩ : BufTy).Contents (Elt Ideal)) :
    Cert.KernelIdeal.ReluRegion.posPart (F := Ideal) A = maximumf (F := Ideal) (φ := .f32) A (val_main_call0_v0 (F := Ideal)) := rfl

/-- The kernel's result function is the reference's last stage. -/
theorem result_eq_reference (x : (⟨Cert.ReferenceIdeal.S100000x128, .f32⟩ : BufTy).Contents (Elt Ideal)) (W : (⟨Cert.ReferenceIdeal.S128x128, .f32⟩ : BufTy).Contents (Elt Ideal)) (b : (⟨Cert.ReferenceIdeal.S128, .f32⟩ : BufTy).Contents (Elt Ideal))
    (w : (⟨Cert.ReferenceIdeal.S1600000, .f32⟩ : BufTy).Contents (Elt Ideal)) (src dst : (⟨Cert.ReferenceIdeal.S1600000, .i32⟩ : BufTy).Contents (Elt Ideal)) :
    Cert.KernelIdeal.Whole.result x W b w src dst = val_main_v17 (F := Ideal) x W b w src dst := by
  unfold Cert.KernelIdeal.Whole.result val_main_v17 val_main_v16 val_main_v13
  rw [posPart_eq, scaled_eq, gathered_eq]
  rfl

end Cert.Bridge

end
-- ==== Proof.lean ====
/-
  The certificate of the graph-convolution layer: a linear projection, a gather of the projected rows at the edges'
  sources, a scaling of each gathered row by its edge weight, a scatter-add of the scaled rows at the edges' destinations
  and a final positive part — the projection, the scaling and the positive part in three tiled calls, the gather and the
  scatter-add as host operations between them — against the plain array program that computes the same five steps.

  The frames of the two kernel programs are the generated ones; the reference's frame is its generated run with the
  result dropped; the idealisation rewrote nothing. For the value claim the three-call program is run once more with
  the result array's final contents kept (Proof/KernelRun.lean); each call's output array is one whole-array function of
  its input arrays (Proof/LinearRegion.lean, Proof/ScaleRegion.lean, Proof/ReluRegion.lean); the host operations between
  the calls are read at the boundaries (Proof/Boundaries.lean); composed, the result is one function of the six
  arguments (Proof/KernelValue.lean), which is the reference's last stage, read stage by stage at an index
  (Proof/Bridge.lean). The gather and the scatter-add are the same functions of the same index arrays in both programs
  and are never opened.
-/
import proofs.«127006_j23630910062645_1_alg».proof.Defs
import proofs.«127006_j23630910062645_1_alg».proof.Proof.Gen.Kernel
import proofs.«127006_j23630910062645_1_alg».proof.Proof.Gen.Kernel.Frame
import proofs.«127006_j23630910062645_1_alg».proof.Proof.Gen.KernelIdeal
import proofs.«127006_j23630910062645_1_alg».proof.Proof.Gen.KernelIdeal.Frame
import proofs.«127006_j23630910062645_1_alg».proof.Proof.Gen.ReferenceIdeal
import proofs.«127006_j23630910062645_1_alg».proof.Proof.Gen.ReferenceIdeal.Run
import proofs.«127006_j23630910062645_1_alg».proof.Proof.Gen.ReferenceIdeal.Read
import proofs.«127006_j23630910062645_1_alg».proof.Proof.Gen.Pre_finite_inputs
import proofs.«127006_j23630910062645_1_alg».proof.Proof.KernelRun
import proofs.«127006_j23630910062645_1_alg».proof.Proof.KernelValue
import proofs.«127006_j23630910062645_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the result array at the same function of the arguments' launch contents, which agree. -/
theorem algebraic : Cert.algebraic_KernelIdeal_ReferenceIdeal := by
  intro m ρ m' ρ' _ hagree
  refine ⟨fun c => Cert.KernelIdeal.Whole.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Whole.result_eq m ρ c), (h c).2⟩)
      (Cert.KernelIdeal.Named.run_named m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v17_eq, (hagree c).1, (hagree c).2.1, (hagree c).2.2.1, (hagree c).2.2.2.1,
      (hagree c).2.2.2.2.1, (hagree c).2.2.2.2.2]
    exact (Cert.Bridge.result_eq_reference _ _ _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
